-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x21x128 : Shape := ⟨3, ![4096, 21, 128]⟩
abbrev S5376x2688 : Shape := ⟨2, ![5376, 2688]⟩
abbrev S5376 : Shape := ⟨1, ![5376]⟩
abbrev S21x21 : Shape := ⟨2, ![21, 21]⟩
abbrev S_ : Shape := ⟨0, ![]⟩

class Facts : Prop where
  bcast_S_S4096x21x128 : S_.BroadcastsInDim S4096x21x128 (![] : Fin 0 → Fin S4096x21x128.rank)
  reducesTo_S4096x21x128_S_d0_1_2 : S4096x21x128.ReducesTo [0, 1, 2] S_
  h_S_ : 0 < S_.numel
  bcast_S_S5376x2688 : S_.BroadcastsInDim S5376x2688 (![] : Fin 0 → Fin S5376x2688.rank)
  reducesTo_S5376x2688_S_d0_1 : S5376x2688.ReducesTo [0, 1] S_
  bcast_S_S5376 : S_.BroadcastsInDim S5376 (![] : Fin 0 → Fin S5376.rank)
  reducesTo_S5376_S_d0 : S5376.ReducesTo [0] S_

variable [Facts]

def fn {F : FTy → Type} [FloatOps F] (main_arg0 : FVec F S4096x21x128 .f32) (main_arg1 : FVec F S5376x2688 .f32) (main_arg2 : FVec F S5376 .f32) (main_arg3 : IVec S21x21 32) : IVec S_ 1 :=
  let main_v0 : FVec F S4096x21x128 .f32 := Host.absf main_arg0
  let main_cst : FVec F S_ .f32 := constant S_ .f32 0x7F800000#32
  let main_v1 : FVec F S4096x21x128 .f32 := broadcastInDim S4096x21x128 ![] bcast_S_S4096x21x128 main_cst
  let main_v2 : IVec S4096x21x128 1 := cmpf .olt main_v0 main_v1
  let main_c : IVec S_ 1 := constantI S_ 1 1#1
  let main_v3 : IVec S_ 1 := (fun x v => Host.reduce IntOp.andi x v reducesTo_S4096x21x128_S_d0_1_2 h_S_) main_v2 main_c
  let main_v4 : FVec F S5376x2688 .f32 := Host.absf main_arg1
  let main_cst_0 : FVec F S_ .f32 := constant S_ .f32 0x7F800000#32
  let main_v5 : FVec F S5376x2688 .f32 := broadcastInDim S5376x2688 ![] bcast_S_S5376x2688 main_cst_0
  let main_v6 : IVec S5376x2688 1 := cmpf .olt main_v4 main_v5
  let main_c_1 : IVec S_ 1 := constantI S_ 1 1#1
  let main_v7 : IVec S_ 1 := (fun x v => Host.reduce IntOp.andi x v reducesTo_S5376x2688_S_d0_1 h_S_) main_v6 main_c_1
  let main_v8 : IVec S_ 1 := andi main_v3 main_v7
  let main_v9 : FVec F S5376 .f32 := Host.absf main_arg2
  let main_cst_2 : FVec F S_ .f32 := constant S_ .f32 0x7F800000#32
  let main_v10 : FVec F S5376 .f32 := broadcastInDim S5376 ![] bcast_S_S5376 main_cst_2
  let main_v11 : IVec S5376 1 := cmpf .olt main_v9 main_v10
  let main_c_3 : IVec S_ 1 := constantI S_ 1 1#1
  let main_v12 : IVec S_ 1 := (fun x v => Host.reduce IntOp.andi x v reducesTo_S5376_S_d0 h_S_) main_v11 main_c_3
  let main_v13 : IVec S_ 1 := andi main_v8 main_v12
  main_v13
-- ==== Kernel.lean ====
abbrev S4096x21x128 : Shape := ⟨3, ![4096, 21, 128]⟩
abbrev S5376x2688 : Shape := ⟨2, ![5376, 2688]⟩
abbrev S5376 : Shape := ⟨1, ![5376]⟩
abbrev S21x21 : Shape := ⟨2, ![21, 21]⟩
abbrev S4096x2688 : Shape := ⟨2, ![4096, 2688]⟩
abbrev S21x21x128 : Shape := ⟨3, ![21, 21, 128]⟩
abbrev S21x2688 : Shape := ⟨2, ![21, 2688]⟩
abbrev S21x1x2688 : Shape := ⟨3, ![21, 1, 2688]⟩
abbrev S21x1x256 : Shape := ⟨3, ![21, 1, 256]⟩
abbrev S4096x5376 : Shape := ⟨2, ![4096, 5376]⟩
abbrev S512x2688 : Shape := ⟨2, ![512, 2688]⟩
abbrev S256x2688 : Shape := ⟨2, ![256, 2688]⟩
abbrev S1x1x2688 : Shape := ⟨3, ![1, 1, 2688]⟩
abbrev S1x1x256 : Shape := ⟨3, ![1, 1, 256]⟩
abbrev S512x256 : Shape := ⟨2, ![512, 256]⟩
abbrev S2688 : Shape := ⟨1, ![2688]⟩
abbrev S256 : Shape := ⟨1, ![256]⟩
abbrev S1x2688 : Shape := ⟨2, ![1, 2688]⟩
abbrev S2688x256 : Shape := ⟨2, ![2688, 256]⟩
abbrev S1x256 : Shape := ⟨2, ![1, 256]⟩
abbrev S4096x21x256 : Shape := ⟨3, ![4096, 21, 256]⟩

abbrev nBuf : Space → Nat
  | .hbm => 12
  | .vmem => 10
  | .smem => 0
  | _ => 0

abbrev bufTy : (tb : Table) → Fin (tcTables nBuf tb) → BufTy
  | .hbm, ⟨0, _⟩ => ⟨S4096x21x128, .f32⟩
  | .hbm, ⟨1, _⟩ => ⟨S5376x2688, .f32⟩
  | .hbm, ⟨2, _⟩ => ⟨S5376, .f32⟩
  | .hbm, ⟨3, _⟩ => ⟨S21x21, .i32⟩
  | .hbm, ⟨4, _⟩ => ⟨S4096x2688, .f32⟩
  | .hbm, ⟨5, _⟩ => ⟨S21x21, .f32⟩
  | .hbm, ⟨6, _⟩ => ⟨S21x21x128, .f32⟩
  | .hbm, ⟨7, _⟩ => ⟨S21x2688, .f32⟩
  | .hbm, ⟨8, _⟩ => ⟨S21x1x2688, .f32⟩
  | .hbm, ⟨9, _⟩ => ⟨S21x1x256, .f32⟩
  | .hbm, ⟨10, _⟩ => ⟨S4096x5376, .f32⟩
  | .hbm, ⟨11, _⟩ => ⟨S4096x21x256, .f32⟩
  | .local _ .vmem, ⟨0, _⟩ => ⟨S512x2688, .f32⟩
  | .local _ .vmem, ⟨1, _⟩ => ⟨S512x2688, .f32⟩
  | .local _ .vmem, ⟨2, _⟩ => ⟨S256x2688, .f32⟩
  | .local _ .vmem, ⟨3, _⟩ => ⟨S256x2688, .f32⟩
  | .local _ .vmem, ⟨4, _⟩ => ⟨S1x1x2688, .f32⟩
  | .local _ .vmem, ⟨5, _⟩ => ⟨S1x1x2688, .f32⟩
  | .local _ .vmem, ⟨6, _⟩ => ⟨S1x1x256, .f32⟩
  | .local _ .vmem, ⟨7, _⟩ => ⟨S1x1x256, .f32⟩
  | .local _ .vmem, ⟨8, _⟩ => ⟨S512x256, .f32⟩
  | .local _ .vmem, ⟨9, _⟩ => ⟨S512x256, .f32⟩
  | _, _ => ⟨S4096x21x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 21], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2688 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x2688 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x2688 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4096x21x128_S4096x2688 : S4096x21x128.ShapeCasts S4096x2688
  bcast_S21x21_S21x21x128_0_1 : S21x21.BroadcastsInDim S21x21x128 (![0, 1] : Fin 2 → Fin S21x21x128.rank)
  shapeCasts_S21x21x128_S21x2688 : S21x21x128.ShapeCasts S21x2688
  shapeCasts_S21x2688_S21x1x2688 : S21x2688.ShapeCasts S21x1x2688
  shapeCasts_S5376_S21x1x256 : S5376.ShapeCasts S21x1x256
  inb_S512x2688_S512x2688_0_0 : ∀ a, (![0, 0] : Fin 2 → Nat) a + S512x2688.size a ≤ S512x2688.size a
  h_S512x2688 : 0 < S512x2688.numel
  shapeCasts_S512x2688_S512x2688 : S512x2688.ShapeCasts S512x2688
  inb_S256x2688_S256x2688_0_0 : ∀ a, (![0, 0] : Fin 2 → Nat) a + S256x2688.size a ≤ S256x2688.size a
  h_S256x2688 : 0 < S256x2688.numel
  inb_S1x1x2688_S1x1x2688_0_0_0 : ∀ a, (![0, 0, 0] : Fin 3 → Nat) a + S1x1x2688.size a ≤ S1x1x2688.size a
  h_S1x1x2688 : 0 < S1x1x2688.numel
  shapeCasts_S1x1x2688_S2688 : S1x1x2688.ShapeCasts S2688
  inb_S1x1x256_S1x1x256_0_0_0 : ∀ a, (![0, 0, 0] : Fin 3 → Nat) a + S1x1x256.size a ≤ S1x1x256.size a
  h_S1x1x256 : 0 < S1x1x256.numel
  shapeCasts_S1x1x256_S256 : S1x1x256.ShapeCasts S256
  shapeCasts_S2688_S1x2688 : S2688.ShapeCasts S1x2688
  broadcasts_S1x2688_S256x2688 : S1x2688.Broadcasts S256x2688
  bitsLt_bf16_f32 : FTy.bits .bf16 < FTy.bits .f32
  transposes_S256x2688_p1_0_S2688x256 : S256x2688.Transposes [1, 0] S2688x256
  shapeCasts_S256_S1x256 : S256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  shapeCasts_S4096x5376_S4096x21x256 : S4096x5376.ShapeCasts S4096x21x256
  dot_S512x2688_S2688x256_S512x256_1_0_0_1_n_n_wf : DotDims.WF S512x2688 S2688x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2688.size a ≤ S4096x2688.size a
  hwx0_0 : ∀ i : grid0.Coords, EltTy.bits .f32 = 32 ∨ (Rect.block (s := S4096x2688) S512x2688.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2688.size a ≤ S5376x2688.size a
  hwx0_1 : ∀ i : grid0.Coords, EltTy.bits .f32 = 32 ∨ (Rect.block (s := S5376x2688) S256x2688.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2688.size a ≤ S21x1x2688.size a
  hwx0_2 : ∀ i : grid0.Coords, EltTy.bits .f32 = 32 ∨ (Rect.block (s := S21x1x2688) S1x1x2688.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256.size a ≤ S21x1x256.size a
  hwx0_3 : ∀ i : grid0.Coords, EltTy.bits .f32 = 32 ∨ (Rect.block (s := S21x1x256) S1x1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S4096x5376.size a
  hwx0_4 : ∀ i : grid0.Coords, EltTy.bits .f32 = 32 ∨ (Rect.block (s := S4096x5376) S512x256.size (cc0_transform_4 i) (hinb0_4 i)).WholeWords (EltTy.packing .f32)

variable [Facts₀]

def dot_S512x2688_S2688x256_S512x256_1_0_0_1_n_n : DotDims S512x2688 S2688x256 S512x256 where
  lhsContracting := [1]
  rhsContracting := [0]
  lhsNonContracting := [0]
  rhsNonContracting := [1]
  lhsBatch := []
  rhsBatch := []
  wf := dot_S512x2688_S2688x256_S512x256_1_0_0_1_n_n_wf

abbrev win0_0 : Pipeline.Window sig grid0 :=
  Pipeline.Window.ofSpec (Memref.whole main_v0) S512x2688.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2688.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1x2688.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S512x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x21x128 : Shape := ⟨3, ![4096, 21, 128]⟩
abbrev S5376x2688 : Shape := ⟨2, ![5376, 2688]⟩
abbrev S5376 : Shape := ⟨1, ![5376]⟩
abbrev S21x21 : Shape := ⟨2, ![21, 21]⟩
abbrev S_ : Shape := ⟨0, ![]⟩
abbrev S256x128 : Shape := ⟨2, ![256, 128]⟩
abbrev S21x1x21x1 : Shape := ⟨4, ![21, 1, 21, 1]⟩
abbrev S1x256x1x128 : Shape := ⟨4, ![1, 256, 1, 128]⟩
abbrev S21x256x21x128 : Shape := ⟨4, ![21, 256, 21, 128]⟩
abbrev S4096x2688 : Shape := ⟨2, ![4096, 2688]⟩
abbrev S2688x5376 : Shape := ⟨2, ![2688, 5376]⟩
abbrev S4096x5376 : Shape := ⟨2, ![4096, 5376]⟩
abbrev S1x5376 : Shape := ⟨2, ![1, 5376]⟩
abbrev S4096x21x256 : Shape := ⟨3, ![4096, 21, 256]⟩

abbrev nBuf : Space → Nat
  | .hbm => 21
  | .vmem => 0
  | .smem => 0
  | _ => 0

abbrev bufTy : (tb : Table) → Fin (tcTables nBuf tb) → BufTy
  | .hbm, ⟨0, _⟩ => ⟨S4096x21x128, .f32⟩
  | .hbm, ⟨1, _⟩ => ⟨S5376x2688, .f32⟩
  | .hbm, ⟨2, _⟩ => ⟨S5376, .f32⟩
  | .hbm, ⟨3, _⟩ => ⟨S21x21, .i32⟩
  | .hbm, ⟨4, _⟩ => ⟨S21x21, .f32⟩
  | .hbm, ⟨5, _⟩ => ⟨S_, .f32⟩
  | .hbm, ⟨6, _⟩ => ⟨S256x128, .f32⟩
  | .hbm, ⟨7, _⟩ => ⟨S21x1x21x1, .f32⟩
  | .hbm, ⟨8, _⟩ => ⟨S1x256x1x128, .f32⟩
  | .hbm, ⟨9, _⟩ => ⟨S21x256x21x128, .f32⟩
  | .hbm, ⟨10, _⟩ => ⟨S21x256x21x128, .f32⟩
  | .hbm, ⟨11, _⟩ => ⟨S21x256x21x128, .f32⟩
  | .hbm, ⟨12, _⟩ => ⟨S5376x2688, .f32⟩
  | .hbm, ⟨13, _⟩ => ⟨S5376x2688, .f32⟩
  | .hbm, ⟨14, _⟩ => ⟨S4096x2688, .f32⟩
  | .hbm, ⟨15, _⟩ => ⟨S2688x5376, .f32⟩
  | .hbm, ⟨16, _⟩ => ⟨S4096x5376, .f32⟩
  | .hbm, ⟨17, _⟩ => ⟨S1x5376, .f32⟩
  | .hbm, ⟨18, _⟩ => ⟨S4096x5376, .f32⟩
  | .hbm, ⟨19, _⟩ => ⟨S4096x5376, .f32⟩
  | .hbm, ⟨20, _⟩ => ⟨S4096x21x256, .f32⟩
  | _, _ => ⟨S4096x21x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩

abbrev nD : Nat := 1
abbrev τ : Topo := Topo.v7x

variable {F : FTy → Type} [FloatOps F]

class Facts₀ : Prop where
  bcast_S_S256x128 : S_.BroadcastsInDim S256x128 (![] : Fin 0 → Fin S256x128.rank)
  bcast_S21x21_S21x1x21x1_0_2 : S21x21.BroadcastsInDim S21x1x21x1 (![0, 2] : Fin 2 → Fin S21x1x21x1.rank)
  bcast_S256x128_S1x256x1x128_1_3 : S256x128.BroadcastsInDim S1x256x1x128 (![1, 3] : Fin 2 → Fin S1x256x1x128.rank)
  bcast_S21x1x21x1_S21x256x21x128_0_1_2_3 : S21x1x21x1.BroadcastsInDim S21x256x21x128 (![0, 1, 2, 3] : Fin 4 → Fin S21x256x21x128.rank)
  bcast_S1x256x1x128_S21x256x21x128_0_1_2_3 : S1x256x1x128.BroadcastsInDim S21x256x21x128 (![0, 1, 2, 3] : Fin 4 → Fin S21x256x21x128.rank)
  shapeCasts_S21x256x21x128_S5376x2688 : S21x256x21x128.ShapeCasts S5376x2688
  shapeCasts_S4096x21x128_S4096x2688 : S4096x21x128.ShapeCasts S4096x2688
  transposes_S5376x2688_S2688x5376_1_0 : S5376x2688.Transposes [1, 0] S2688x5376
  bcast_S5376_S1x5376_1 : S5376.BroadcastsInDim S1x5376 (![1] : Fin 1 → Fin S1x5376.rank)
  bcast_S1x5376_S4096x5376_0_1 : S1x5376.BroadcastsInDim S4096x5376 (![0, 1] : Fin 2 → Fin S4096x5376.rank)
  shapeCasts_S4096x5376_S4096x21x256 : S4096x5376.ShapeCasts S4096x21x256
  dot_S4096x2688_S2688x5376_S4096x5376_1_0_0_1_n_n_wf : DotDims.WF S4096x2688 S2688x5376 S4096x5376 [1] [0] [0] [1] [] []

variable [Facts₀]

def dot_S4096x2688_S2688x5376_S4096x5376_1_0_0_1_n_n : DotDims S4096x2688 S2688x5376 S4096x5376 where
  lhsContracting := [1]
  rhsContracting := [0]
  lhsNonContracting := [0]
  rhsNonContracting := [1]
  lhsBatch := []
  rhsBatch := []
  wf := dot_S4096x2688_S2688x5376_S4096x5376_1_0_0_1_n_n_wf

class Facts : Prop extends Facts₀ where

variable [Facts]
-- ==== Proof.Spec.lean ====
/-
  The masked linear layer, as one function of the arrays both programs read.

  The layer has 21 nodes. A node owns 128 consecutive input features (the 2688 columns of the flattened input and of the
  weight) and 256 consecutive output features (the 5376 rows of the weight, the 5376 columns of the result). The
  adjacency matrix `a` says which input node may feed which output node: weight entry `(r, k)` is kept with factor
  `a (r / 256, k / 128)`, the adjacency between the node owning output feature `r` and the node owning input feature
  `k`. The result at `(b, r)` is the masked row of the weight against row `b` of the input, plus the bias:

      layer xf w a bias (b, r) = (∑ k, xf (b, k) · (w (r, k) · a (r / 256, k / 128))) + bias r.

  Nothing here is specific to a float format: the entries are extended reals and the operations are the exact ones.
-/
import Idealize.ShloMosaic.PureOps.Ideal
import Idealize.ShloMosaic.Lib.ValueIdx

noncomputable section

namespace Cert.MaskedLinear

open Idealize.ShloMosaic Idealize.ShloMosaic.ValueIdx

/-- The node that owns output feature `r`: 256 output features per node. -/
def rowNode (r : Fin 5376) : Fin 21 := ⟨r.val / 256, by have := r.isLt; omega⟩

/-- The node that owns input feature `k`: 128 input features per node. -/
def colNode (k : Fin 2688) : Fin 21 := ⟨k.val / 128, by have := k.isLt; omega⟩

theorem rowNode_val (r : Fin 5376) : (rowNode r).val = r.val / 256 := rfl
theorem colNode_val (k : Fin 2688) : (colNode k).val = k.val / 128 := rfl

/-- Output feature `o` of node `n` is row `n · 256 + o`, and that row's node is `n`. -/
theorem rowNode_block (n : Fin 21) (o : Fin 256) (h : n.val * 256 + o.val < 5376) :
    rowNode ⟨n.val * 256 + o.val, h⟩ = n :=
  Fin.ext (by have := o.isLt; show (n.val * 256 + o.val) / 256 = n.val; omega)

/-- The layer: at `(b, r)` the sum over the input features `k` of the input's `(b, k)` times the weight's `(r, k)`
    masked by the adjacency between the nodes of `r` and `k`, plus the bias at `r`. -/
def layer (xf : (⟨2, ![4096, 2688]⟩ : Shape).Idx → EReal) (w : (⟨2, ![5376, 2688]⟩ : Shape).Idx → EReal)
    (a : (⟨2, ![21, 21]⟩ : Shape).Idx → EReal) (bias : (⟨1, ![5376]⟩ : Shape).Idx → EReal) :
    (⟨2, ![4096, 5376]⟩ : Shape).Idx → EReal :=
  fun i => (∑ k : Fin 2688, xf (ix2 (i 0) k) * (w (ix2 (i 1) k) * a (ix2 (rowNode (i 1)) (colNode k)))) + bias (ix1 (i 1))

theorem layer_apply (xf : (⟨2, ![4096, 2688]⟩ : Shape).Idx → EReal) (w : (⟨2, ![5376, 2688]⟩ : Shape).Idx → EReal)
    (a : (⟨2, ![21, 21]⟩ : Shape).Idx → EReal) (bias : (⟨1, ![5376]⟩ : Shape).Idx → EReal) (b : Fin 4096) (r : Fin 5376) :
    layer xf w a bias (ix2 b r)
      = (∑ k : Fin 2688, xf (ix2 b k) * (w (ix2 r k) * a (ix2 (rowNode r) (colNode k)))) + bias (ix1 r) := rfl

end Cert.MaskedLinear

end
-- ==== Proof.RefValue.lean ====
/-
  The reference computes the layer.

  The reference builds its mask as a Kronecker product: the adjacency matrix, converted to floats, against a 256 × 128
  block of ones, so mask entry `(r, k)` is `a (r / 256, k / 128) · 1`. It multiplies the weight by the mask entry by
  entry, contracts the flattened input against the masked weight's transpose and adds the bias broadcast over the
  batch. Reading each stage at an index, entry `(b, r)` of the sum is

      (∑ k, xf (b, k) · (w (r, k) · (a (r / 256, k / 128) · 1))) + bias r,

  which is the layer once the factor `1` is dropped: `y · 1 = y` holds for every extended real, the infinities
  included, so nothing is asked of the inputs.
-/
import proofs.«158373_j9758165696678_1_alg».proof.Proof.Gen.ReferenceIdeal.Read
import proofs.«158373_j9758165696678_1_alg».proof.Proof.Spec
import Idealize.ShloMosaic.PureOps.IdealRules

noncomputable section

namespace Cert.ReferenceIdeal.RefValue

open Cert.ReferenceIdeal Cert.ReferenceIdeal.Read Cert.MaskedLinear
open Idealize.ShloMosaic Idealize.ShloMosaic.ValueIdx

/-- The block of ones the Kronecker product is taken against: the f32 pattern of `1.0` denotes the extended real `1`. -/
theorem one_f32 : Ideal.ofBits .f32 0x3F800000#32 = 1 := IdealRules.sign_bit.ideal_onePat .f32

/-- The Kronecker mask at `(r, k)` is the float adjacency between the node owning output feature `r` and the node
    owning input feature `k`: the product's four-axis form `(i, o, j, s)` is laid out row-major as
    `(i · 256 + o, j · 128 + s)`, and its entry is `a (i, j) · 1`. -/
theorem mask_apply (x3 : (⟨S21x21, .i32⟩ : BufTy).Contents (Elt Ideal)) (r : Fin 5376) (k : Fin 2688) :
    val_main_v2 (F := Ideal) x3 (ix2 r k) = val_main_v0 (F := Ideal) x3 (ix2 (rowNode r) (colNode k)) := by
  rw [val_main_v2_apply, val_main_call0_v4_apply, val_main_call0_v2_apply, val_main_call0_v0_apply,
    val_main_call0_v3_apply, val_main_call0_v1_apply, val_main_v1_apply, val_main_cst_apply,
    Ideal.mulf_def, Ideal.ofBits_def, one_f32, mul_one]
  refine congrArg (val_main_v0 (F := Ideal) x3) (funext fun a => Fin.ext ?_)
  have hk : k.val < 2688 := k.isLt
  have hr : r.val < 5376 := r.isLt
  match a with
  | ⟨0, _⟩ => show (r.val * 2688 + k.val) / 688128 = r.val / 256; omega
  | ⟨1, _⟩ => show (r.val * 2688 + k.val) / 128 % 21 = k.val / 128; omega

/-- The reference's sum before its last reshape, the 4096 × 5376 array, is the layer of the flattened input, the
    weight, the float adjacency and the bias. -/
theorem sum_eq_layer (x0 : (⟨S4096x21x128, .f32⟩ : BufTy).Contents (Elt Ideal)) (x1 : (⟨S5376x2688, .f32⟩ : BufTy).Contents (Elt Ideal))
    (x2 : (⟨S5376, .f32⟩ : BufTy).Contents (Elt Ideal)) (x3 : (⟨S21x21, .i32⟩ : BufTy).Contents (Elt Ideal)) :
    val_main_v9 (F := Ideal) x0 x1 x2 x3
      = layer (val_main_v4 (F := Ideal) x0) x1 (val_main_v0 (F := Ideal) x3) x2 := by
  funext i
  obtain ⟨b, r, rfl⟩ : ∃ (b : Fin 4096) (r : Fin 5376), i = ix2 b r := ⟨i 0, i 1, eq_ix2 i⟩
  rw [layer_apply, val_main_v9_apply, val_main_v6_apply, val_main_v8_apply, val_main_v7_apply, Ideal.addf_def]
  refine congrArg₂ (· + ·) (Finset.sum_congr rfl fun k _ => ?_) (congrArg x2 (funext fun a => Fin.ext ?_))
  · have el : lidx_main_v6 (ix2 b r) k = ix2 b k :=
      funext fun a => Fin.ext (by match a with | ⟨0, _⟩ => rfl | ⟨1, _⟩ => rfl)
    have er : idx_main_v5 (ridx_main_v6 (ix2 b r) k) = ix2 r k :=
      funext fun a => Fin.ext (by match a with | ⟨0, _⟩ => rfl | ⟨1, _⟩ => rfl)
    rw [el, val_main_v5_apply, er, val_main_v3_apply, Ideal.mulf_def, mask_apply]
  · match a with
    | ⟨0, _⟩ => rfl

end Cert.ReferenceIdeal.RefValue

end
-- ==== Proof.KernelEntry.lean ====
/-
  What the kernel's grid finds in its arrays.

  Before the grid runs, the host lines lay out three of its operands. The input `[4096, 21, 128]` is flattened to
  `[4096, 2688]`. The adjacency matrix is converted to floats and every entry `(i, j)` is repeated over node `j`'s 128
  input features, giving one mask row of length 2688 per output node `i`, stored as `[21, 1, 2688]`: its entry
  `(i, 0, k)` is the adjacency between node `i` and the node that owns input feature `k`. The bias `[5376]` is cut into
  one row of 256 per node, stored as `[21, 1, 256]`: its entry `(n, 0, o)` is the bias of output feature `n · 256 + o`.
  The weight is passed as it is.
-/
import proofs.«158373_j9758165696678_1_alg».proof.Proof.Gen.KernelIdeal.Frame
import proofs.«158373_j9758165696678_1_alg».proof.Proof.Spec
import Idealize.ShloMosaic.Lib.StableHlo.Run
import Idealize.ShloMosaic.Lib.Pipeline.Value
import Idealize.ShloMosaic.Lib.ValueIdx

noncomputable section

namespace Cert.KernelIdeal.Entry

open Cert.KernelIdeal Cert.KernelIdeal.Gen Cert.MaskedLinear
open Idealize.ShloMosaic Idealize.ShloMosaic.TcCoe Idealize.SL.Sem Idealize.ShloMosaic.StableHlo Idealize.ShloMosaic.ValueIdx

/-! ## The two re-laid operands read at an index -/

/-- The mask rows: the float adjacency `a`, each entry repeated 128 times along the second axis, then laid out as
    `[21, 1, 2688]`. Entry `(n, 0, k)` is `a (n, k / 128)`. -/
theorem maskRows_apply (a : FVec Ideal S21x21 .f32) (n : Fin 21) (u : Fin 1) (k : Fin 2688) :
    shapeCast S21x1x2688 (shapeCast S21x2688 (broadcastInDim S21x21x128 ![0, 1] bcast_S21x21_S21x21x128_0_1 a)
        shapeCasts_S21x21x128_S21x2688) shapeCasts_S21x2688_S21x1x2688 (ix3 n u k)
      = a (ix2 n (colNode k)) := by
  have hk : k.val < 2688 := k.isLt
  have hu : u.val = 0 := by omega
  rw [shapeCast_apply _ shapeCasts_S21x2688_S21x1x2688 (ix3 n u k) (ix2 n k) (by
        rw [Shape.rowMajor_val_two, Shape.rowMajor_val_three]
        show n.val * 2688 + k.val = (n.val * 1 + u.val) * 2688 + k.val
        omega),
    shapeCast_apply _ shapeCasts_S21x21x128_S21x2688 (ix2 n k)
      (ix3 n (colNode k) (⟨k.val % 128, Nat.mod_lt _ (by decide)⟩ : Fin 128)) (by
        rw [Shape.rowMajor_val_three, Shape.rowMajor_val_two]
        show (n.val * 21 + k.val / 128) * 128 + k.val % 128 = n.val * 2688 + k.val
        omega)]
  exact broadcastInDim_apply _ bcast_S21x21_S21x21x128_0_1 a _ (ix2 n (colNode k)) (fun ax => match ax with
    | ⟨0, _⟩ => by show n.val = if (21 : Nat) = 1 then 0 else n.val; rw [if_neg (by decide)]
    | ⟨1, _⟩ => by show k.val / 128 = if (21 : Nat) = 1 then 0 else k.val / 128; rw [if_neg (by decide)])

/-- The bias rows: the bias laid out as `[21, 1, 256]`. Entry `(n, 0, o)` is the bias at `n · 256 + o`. -/
theorem biasRows_apply (bias : FVec Ideal S5376 .f32) (n : Fin 21) (u : Fin 1) (o : Fin 256) (i : S5376.Idx)
    (hi : (i 0).val = n.val * 256 + o.val) :
    shapeCast S21x1x256 bias shapeCasts_S5376_S21x1x256 (ix3 n u o) = bias i := by
  have hu : u.val = 0 := by omega
  exact shapeCast_apply bias shapeCasts_S5376_S21x1x256 _ _ (by
    rw [Shape.rowMajor_val_one, Shape.rowMajor_val_three]
    show (i 0).val = (n.val * 1 + u.val) * 256 + o.val
    omega)

/-! ## The arrays as the grid finds them -/

variable (m : (ℓ : Loc nD τ sig) → Buf (Elt Ideal) ℓ)

/-- The input, flattened. -/
abbrev flatInput (c : Dev nD) : FVec Ideal S4096x2688 .f32 :=
  shapeCast S4096x2688 (m ((c : Thread nD τ).loc main_arg0)) shapeCasts_S4096x21x128_S4096x2688

/-- The adjacency matrix as floats. -/
abbrev floatAdj (c : Dev nD) : FVec Ideal S21x21 .f32 := sitofp .f32 (m ((c : Thread nD τ).loc main_arg3))

/-- The grid's first operand is the flattened input. -/
theorem V_flatInput (c : Dev nD) : (V m c main_v0 : S4096x2688.Idx → EReal) = flatInput m c := by
  show StableHlo.after hostOps0 (fun b => m (c, b)) (Proc.devRef .tc main_v0) = _
  after_results
  rfl

/-- Its third operand is the mask rows of the float adjacency. -/
theorem V_maskRows (c : Dev nD) : (V m c main_v4 : S21x1x2688.Idx → EReal)
      = shapeCast S21x1x2688 (shapeCast S21x2688 (broadcastInDim S21x21x128 ![0, 1] bcast_S21x21_S21x21x128_0_1 (floatAdj m c))
          shapeCasts_S21x21x128_S21x2688) shapeCasts_S21x2688_S21x1x2688 := by
  show StableHlo.after hostOps0 (fun b => m (c, b)) (Proc.devRef .tc main_v4) = _
  after_results
  rfl

/-- Its fourth operand is the bias rows. -/
theorem V_biasRows (c : Dev nD) : (V m c main_v5 : S21x1x256.Idx → EReal)
      = shapeCast S21x1x256 (m ((c : Thread nD τ).loc main_arg2)) shapeCasts_S5376_S21x1x256 := by
  show StableHlo.after hostOps0 (fun b => m (c, b)) (Proc.devRef .tc main_v5) = _
  after_results
  rfl

end Cert.KernelIdeal.Entry

end
-- ==== Proof.LibLayout.lean ====
/-
  A shape cast that drops two leading unit axes, read at an index.

  An array of shape `[1, 1, a]` and the vector of shape `[a]` hold the same entries in the same row-major order: position
  `(0 · 1 + 0) · a + i` of the first is position `i` of the second.
-/
import Idealize.ShloMosaic.Lib.Pipeline.Value
import Idealize.ShloMosaic.Lib.ValueIdx

namespace Idealize.ShloMosaic.ValueIdx

variable {α : Type}

/-- A `[1, 1, a]` array cast to `[a]` reads, at `i`, the operand at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

end Idealize.ShloMosaic.ValueIdx
-- ==== Proof.Payload.lean ====
/-
  What one grid point of the kernel stores, read at an index.

  At a grid point the body holds four blocks: 512 rows of the flattened input (`x`, 512 × 2688), the 256 weight rows of
  one node (`w`, 256 × 2688), that node's mask row (`mask`, 1 × 1 × 2688) and that node's bias (`bias`, 1 × 1 × 256).
  It multiplies every weight row by the mask row entry by entry, takes the matrix product of the input rows with the
  transpose of the masked weight into a zero accumulator, and adds the bias to every row. Its changes of float format
  are the identity on extended reals and its shape casts only relabel positions, so entry `(p, o)` of what it stores is

      (∑ k, x (p, k) · (w (o, k) · mask (0, 0, k))) + bias (0, 0, o).
-/
import proofs.«158373_j9758165696678_1_alg».proof.Proof.Gen.KernelIdeal.Skeleton
import proofs.«158373_j9758165696678_1_alg».proof.Proof.LibLayout
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx

/-! ## The matrix product's operand indices, axis by axis

The product contracts axis 1 of its left operand with axis 0 of its right one; the other axis of each operand is the
result's axis of the same side. -/

/-- The left operand's row is the result's row. -/
theorem lhs_axis0 (i : S512x256.Idx) (q : dot_S512x2688_S2688x256_S512x256_1_0_0_1_n_n.contr.Idx) :
    (dot_S512x2688_S2688x256_S512x256_1_0_0_1_n_n.lhsIdx i q 0).val = (i 0).val := by
  unfold DotDims.lhsIdx
  rw [dif_neg (show ¬(0 : Fin S512x2688.rank) ∈ dot_S512x2688_S2688x256_S512x256_1_0_0_1_n_n.lhsBatch by decide), dif_pos (show (0 : Fin S512x2688.rank) ∈ dot_S512x2688_S2688x256_S512x256_1_0_0_1_n_n.lhsNonContracting by decide)]
  rfl
/-- The left operand's column is the contraction index. -/
theorem lhs_axis1 (i : S512x256.Idx) (q : dot_S512x2688_S2688x256_S512x256_1_0_0_1_n_n.contr.Idx) :
    (dot_S512x2688_S2688x256_S512x256_1_0_0_1_n_n.lhsIdx i q 1).val = (q ⟨0, by decide⟩).val :=
  dot_S512x2688_S2688x256_S512x256_1_0_0_1_n_n.lhsIdx_val_of_single rfl i q
/-- The right operand's row is the contraction index. -/
theorem rhs_axis0 (i : S512x256.Idx) (q : dot_S512x2688_S2688x256_S512x256_1_0_0_1_n_n.contr.Idx) :
    (dot_S512x2688_S2688x256_S512x256_1_0_0_1_n_n.rhsIdx i q 0).val = (q ⟨0, by decide⟩).val :=
  dot_S512x2688_S2688x256_S512x256_1_0_0_1_n_n.rhsIdx_val_of_single rfl i q
/-- The right operand's column is the result's column. -/
theorem rhs_axis1 (i : S512x256.Idx) (q : dot_S512x2688_S2688x256_S512x256_1_0_0_1_n_n.contr.Idx) :
    (dot_S512x2688_S2688x256_S512x256_1_0_0_1_n_n.rhsIdx i q 1).val = (i 1).val := by
  unfold DotDims.rhsIdx
  rw [dif_neg (show ¬(1 : Fin S2688x256.rank) ∈ dot_S512x2688_S2688x256_S512x256_1_0_0_1_n_n.rhsBatch by decide), dif_pos (show (1 : Fin S2688x256.rank) ∈ dot_S512x2688_S2688x256_S512x256_1_0_0_1_n_n.rhsNonContracting by decide)]
  rfl

/-- The body's matrix product into the zero accumulator, at `(p, o)`: the sum over the 2688 contracted positions of the
    left operand's `(p, k)` times the right operand's `(k, o)`. -/
theorem product_apply (l : FVec Ideal S512x2688 .bf16) (r : FVec Ideal S2688x256 .bf16) (p : Fin 512) (o : Fin 256) :
    matmul (F := Ideal) dot_S512x2688_S2688x256_S512x256_1_0_0_1_n_n none l r (constant S512x256 .f32 0x00000000#32) (ix2 p o)
      = ∑ k : Fin 2688, l (ix2 p k) * r (ix2 k o) := by
  simp only [matmul]
  rw [Ideal.matmul_constant_zero_apply, ← Equiv.sum_comp (contrEquiv1 dot_S512x2688_S2688x256_S512x256_1_0_0_1_n_n 2688 rfl rfl).symm]
  refine Finset.sum_congr rfl fun k _ => ?_
  have hk := contrEquiv1_symm_val dot_S512x2688_S2688x256_S512x256_1_0_0_1_n_n 2688 rfl rfl k
  have el : dot_S512x2688_S2688x256_S512x256_1_0_0_1_n_n.lhsIdx (ix2 p o) ((contrEquiv1 dot_S512x2688_S2688x256_S512x256_1_0_0_1_n_n 2688 rfl rfl).symm k) = ix2 p k := funext fun a => Fin.ext (by
    match a with
    | ⟨0, _⟩ => exact lhs_axis0 _ _
    | ⟨1, _⟩ => exact (lhs_axis1 _ _).trans hk)
  have er : dot_S512x2688_S2688x256_S512x256_1_0_0_1_n_n.rhsIdx (ix2 p o) ((contrEquiv1 dot_S512x2688_S2688x256_S512x256_1_0_0_1_n_n 2688 rfl rfl).symm k) = ix2 k o := funext fun a => Fin.ext (by
    match a with
    | ⟨0, _⟩ => exact (rhs_axis0 _ _).trans hk
    | ⟨1, _⟩ => exact rhs_axis1 _ _)
  rw [el, er]

/-! ## The stored value -/

/-- Entry `(p, o)` of what the body stores: the masked weight row `o` against input row `p`, plus the bias at `o`. -/
theorem stored_apply (x : Vec Ideal S512x2688 .f32) (w : Vec Ideal S256x2688 .f32) (mask : Vec Ideal S1x1x2688 .f32)
    (bias : Vec Ideal S1x1x256 .f32) (p : Fin 512) (o : Fin 256) :
    k0_pay1 (F := Ideal) x w mask bias (ix2 p o)
      = (∑ k : Fin 2688, x (ix2 p k) * (w (ix2 o k) * mask (ix3 (0 : Fin 1) (0 : Fin 1) k)))
        + bias (ix3 (0 : Fin 1) (0 : Fin 1) o) := by
  unfold k0_pay1
  rw [addf_apply, product_apply]
  refine congrArg₂ (· + ·) (Finset.sum_congr rfl fun k _ => ?_) ?_
  · rw [truncf_apply, shapeCast_self, transpose_ix2_apply, truncf_apply, mulf_apply, broadcastTo_1b_ab_apply,
      shapeCast_a_1a_apply, shapeCast_11a_a_apply]
  · rw [broadcastTo_1b_ab_apply, shapeCast_a_1a_apply, shapeCast_11a_a_apply]

end Cert.KernelIdeal.Payload

end
-- ==== Proof.KernelBlock.lean ====
/-
  One grid point's store is a block of the layer.

  Grid point `(mi, ni)` holds input rows `mi · 512 …`, the weight rows and the bias of node `ni` (rows `ni · 256 …`)
  and node `ni`'s mask row, whose entry at `k` is the adjacency between node `ni` and the node owning input feature
  `k`. Since output feature `ni · 256 + o` belongs to node `ni`, what the point stores at `(p, o)` is the layer at
  `(mi · 512 + p, ni · 256 + o)`. Stated over blocks and arrays given only by how their entries correspond, so that it
  applies to any way of cutting the blocks out of the arrays.
-/
import proofs.«158373_j9758165696678_1_alg».proof.Proof.Payload
import proofs.«158373_j9758165696678_1_alg».proof.Proof.Spec

noncomputable section

namespace Cert.KernelIdeal.Block

open Cert.KernelIdeal Cert.KernelIdeal.Gen Cert.KernelIdeal.Payload Cert.MaskedLinear
open Idealize.ShloMosaic Idealize.ShloMosaic.ValueIdx

theorem stored_eq_layer
    (xf : FVec Ideal S4096x2688 .f32) (w : FVec Ideal S5376x2688 .f32) (a : FVec Ideal S21x21 .f32) (bias : FVec Ideal S5376 .f32)
    (x : Vec Ideal S512x2688 .f32) (wb : Vec Ideal S256x2688 .f32) (mb : Vec Ideal S1x1x2688 .f32) (bb : Vec Ideal S1x1x256 .f32)
    (mi ni : Nat) (hni : ni < 21)
    (hx : ∀ (p : Fin 512) (k : Fin 2688) (i : S4096x2688.Idx), (i 0).val = mi * 512 + p.val → (i 1).val = k.val → x (ix2 p k) = xf i)
    (hw : ∀ (o : Fin 256) (k : Fin 2688) (i : S5376x2688.Idx), (i 0).val = ni * 256 + o.val → (i 1).val = k.val → wb (ix2 o k) = w i)
    (hm : ∀ k : Fin 2688, mb (ix3 (0 : Fin 1) (0 : Fin 1) k) = a (ix2 (⟨ni, hni⟩ : Fin 21) (colNode k)))
    (hb : ∀ (o : Fin 256) (i : S5376.Idx), (i 0).val = ni * 256 + o.val → bb (ix3 (0 : Fin 1) (0 : Fin 1) o) = bias i)
    (p : Fin 512) (o : Fin 256) (i : S4096x5376.Idx) (hi0 : (i 0).val = mi * 512 + p.val) (hi1 : (i 1).val = ni * 256 + o.val) :
    k0_pay1 (F := Ideal) x wb mb bb (ix2 p o) = layer xf w a bias i := by
  obtain ⟨b, r, rfl⟩ : ∃ (b : Fin 4096) (r : Fin 5376), i = ix2 b r := ⟨i 0, i 1, eq_ix2 i⟩
  have hb0 : b.val = mi * 512 + p.val := hi0
  have hr1 : r.val = ni * 256 + o.val := hi1
  have hrow : rowNode r = (⟨ni, hni⟩ : Fin 21) := Fin.ext (by
    show r.val / 256 = ni
    have := o.isLt
    omega)
  rw [stored_apply, layer_apply]
  refine congrArg₂ (· + ·) (Finset.sum_congr rfl fun k _ => ?_) (hb o (ix1 r) hr1)
  rw [hx p k (ix2 b k) hb0 rfl, hw o k (ix2 r k) hr1 rfl, hm k, hrow]

end Cert.KernelIdeal.Block

end
-- ==== Proof.KernelArray.lean ====
/-
  The kernel's output array after the grid has run.

  The grid has 8 × 21 points. Point `(mi, ni)` reads input rows `mi · 512 …`, node `ni`'s weight rows, mask row and bias
  row, and writes block `(mi, ni)` of the 4096 × 5376 output, 512 rows by 256 columns. Every block index `(mi, ni)` is
  some point's, so the blocks tile the output; and each block is the corresponding block of the layer. So the output
  array ends holding the layer of the flattened input, the weight, the float adjacency and the bias.
-/
import proofs.«158373_j9758165696678_1_alg».proof.Proof.KernelEntry
import proofs.«158373_j9758165696678_1_alg».proof.Proof.KernelBlock
import proofs.«158373_j9758165696678_1_alg».proof.Proof.Gen.KernelIdeal.Frame

set_option maxRecDepth 16384

noncomputable section

namespace Cert.KernelIdeal.Array

open Cert.KernelIdeal Cert.KernelIdeal.Gen Cert.KernelIdeal.Entry Cert.KernelIdeal.Block Cert.MaskedLinear
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The layer of this run's arrays: the flattened input, the weight, the float adjacency, the bias. -/
abbrev result (c : Dev nD) : FVec Ideal S4096x5376 .f32 :=
  layer (flatInput m c) (m ((c : Thread nD τ).loc main_arg1)) (floatAdj m c) (m ((c : Thread nD τ).loc main_arg2))

theorem off2 : (![0, 0] : Fin 2 → Nat) = fun _ => 0 := funext fun a => by fin_cases a <;> rfl
theorem off3 : (![0, 0, 0] : Fin 3 → Nat) = fun _ => 0 := funext fun a => by fin_cases a <;> rfl

/-- Which block each operand's window is on at a grid point, relative to the output's block `(mi, ni)`: the input is on
    row block `mi`, the weight, the mask and the bias on node `ni`, every other block coordinate is zero; and `mi`,
    `ni` stay in range. Decided over the 168 points. -/
theorem blockIndex_facts : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 3) = win0_4.index t (1 : Fin 2) ∧ win0_2.index t (1 : Fin 3) = 0 ∧ win0_2.index t (2 : Fin 3) = 0
    ∧ win0_3.index t (0 : Fin 3) = win0_4.index t (1 : Fin 2) ∧ win0_3.index t (1 : Fin 3) = 0 ∧ win0_3.index t (2 : Fin 3) = 0
    ∧ win0_4.index t (0 : Fin 2) ≤ 7 ∧ win0_4.index t (1 : Fin 2) ≤ 20 :=
  (by decide +kernel : ∀ t : Fin grid0.N, _)

/-- Every output block is some point's. -/
theorem blockIndex_onto : ∀ (q0 : Fin 8) (q1 : Fin 21), ∃ t : Fin cfg0.N, win0_4.index t = ![q0.val, q1.val] :=
  (by decide +kernel : ∀ (q0 : Fin 8) (q1 : Fin 21), ∃ t : Fin grid0.N, win0_4.index t = ![q0.val, q1.val])

/-- What point `t` writes back is block `t` of the layer. -/
theorem flushed_eq (c : Dev nD) (t : Fin cfg0.N) :
    (dats m 0 c).flushed 4 t = ((cfg0.win 4).blk t).view.read (Elt Ideal) (result m c) := by
  show (cfg0.win 4).cut (grid0.coords t) ((dats m 0 c).after 4 t) = _
  rw [after0_4]
  unfold out0_4
  rw [View.canon_unit_zero off2]
  simp only [View.ld_unit_zero (S := S512x2688) off2, View.ld_unit_zero (S := S256x2688) off2,
    View.ld_unit_zero (S := S1x1x2688) off3, View.ld_unit_zero (S := S1x1x256) off3]
  obtain ⟨e00, e01, e10, e11, e20, e21, e22, e30, e31, e32, b0, b1⟩ := blockIndex_facts t
  funext j
  obtain ⟨p, o, rfl⟩ : ∃ (p : Fin 512) (o : Fin 256), j = ix2 p o := ⟨j 0, j 1, eq_ix2 j⟩
  show k0_pay1 (F := Ideal) (iblk m c 0 t) (iblk m c 1 t) (iblk m c 2 t) (iblk m c 3 t) (ix2 p o)
    = result m c (((cfg0.win 4).blk t).view.emb (ix2 p o))
  refine stored_eq_layer (flatInput m c) (m ((c : Thread nD τ).loc main_arg1)) (floatAdj m c) (m ((c : Thread nD τ).loc main_arg2))
    (iblk m c 0 t) (iblk m c 1 t) (iblk m c 2 t) (iblk m c 3 t)
    (win0_4.index t (0 : Fin 2)) (win0_4.index t (1 : Fin 2)) (by omega) ?_ ?_ ?_ ?_ p o _ ?_ ?_
  · intro p k i h0 h1
    show V m c main_v0 (((cfg0.win 0).blk t).view.emb (ix2 p k)) = flatInput m c i
    rw [V_flatInput]
    refine congrArg (flatInput m c) (funext fun a => Fin.ext ?_)
    match a with
    | ⟨0, _⟩ => show win0_0.index t (0 : Fin 2) * 512 + 1 * p.val = (i 0).val; omega
    | ⟨1, _⟩ => show win0_0.index t (1 : Fin 2) * 2688 + 1 * k.val = (i 1).val; omega
  · intro o k i h0 h1
    show V m c main_arg1 (((cfg0.win 1).blk t).view.emb (ix2 o k)) = m ((c : Thread nD τ).loc main_arg1) i
    rw [V_main_arg1]
    refine congrArg (m ((c : Thread nD τ).loc main_arg1)) (funext fun a => Fin.ext ?_)
    match a with
    | ⟨0, _⟩ => show win0_1.index t (0 : Fin 2) * 256 + 1 * o.val = (i 0).val; omega
    | ⟨1, _⟩ => show win0_1.index t (1 : Fin 2) * 2688 + 1 * k.val = (i 1).val; omega
  · intro k
    show V m c main_v4 (((cfg0.win 2).blk t).view.emb (ix3 (0 : Fin 1) (0 : Fin 1) k)) = _
    rw [V_maskRows]
    refine (congrArg _ (funext fun a => Fin.ext ?_)).trans
      (maskRows_apply (floatAdj m c) (⟨win0_4.index t (1 : Fin 2), by omega⟩ : Fin 21) (0 : Fin 1) k)
    match a with
    | ⟨0, _⟩ => show win0_2.index t (0 : Fin 3) * 1 + 1 * 0 = win0_4.index t (1 : Fin 2); omega
    | ⟨1, _⟩ => show win0_2.index t (1 : Fin 3) * 1 + 1 * 0 = 0; omega
    | ⟨2, _⟩ => show win0_2.index t (2 : Fin 3) * 2688 + 1 * k.val = k.val; omega
  · intro o i h0
    show V m c main_v5 (((cfg0.win 3).blk t).view.emb (ix3 (0 : Fin 1) (0 : Fin 1) o)) = _
    rw [V_biasRows]
    refine (congrArg _ (funext fun a => Fin.ext ?_)).trans
      (biasRows_apply (m ((c : Thread nD τ).loc main_arg2)) (⟨win0_4.index t (1 : Fin 2), by omega⟩ : Fin 21) (0 : Fin 1) o i h0)
    match a with
    | ⟨0, _⟩ => show win0_3.index t (0 : Fin 3) * 1 + 1 * 0 = win0_4.index t (1 : Fin 2); omega
    | ⟨1, _⟩ => show win0_3.index t (1 : Fin 3) * 1 + 1 * 0 = 0; omega
    | ⟨2, _⟩ => show win0_3.index t (2 : Fin 3) * 256 + 1 * o.val = o.val; omega
  · show win0_4.index t (0 : Fin 2) * 512 + 1 * p.val = win0_4.index t (0 : Fin 2) * 512 + p.val; omega
  · show win0_4.index t (1 : Fin 2) * 256 + 1 * o.val = win0_4.index t (1 : Fin 2) * 256 + o.val; omega

/-- An index of the output is in point `t`'s block iff each coordinate is in the block's range on its axis. -/
theorem mem_block (t : Fin cfg0.N) (i : S4096x5376.Idx) :
    i ∈ ((cfg0.win 4).blk t).view.set ↔ ∀ a : Fin 2, win0_4.index t a * S512x256.size a ≤ (i a).val ∧ (i a).val < win0_4.index t a * S512x256.size a + S512x256.size a := by
  show i ∈ ((View.whole main_v6).slice (win0_4.rect t)).set ↔ _
  rw [View.set_slice_whole, Rect.mem_set_unit]
  exact Iff.rfl

/-- The blocks tile the output: index `(b, r)` is in the block of the point on `(b / 512, r / 256)`. -/
theorem covered (i : S4096x5376.Idx) :
    ∃ t : Fin cfg0.N, (cfg0.win 4).flush t = true ∧ i ∈ ((cfg0.win 4).blk t).view.set := by
  have hi0 : (i 0).val < 4096 := (i 0).isLt
  have hi1 : (i 1).val < 5376 := (i 1).isLt
  obtain ⟨t, ht⟩ := blockIndex_onto ⟨(i 0).val / 512, by omega⟩ ⟨(i 1).val / 256, by omega⟩
  have q0 : win0_4.index t (0 : Fin 2) = (i 0).val / 512 := congrFun ht 0
  have q1 : win0_4.index t (1 : Fin 2) = (i 1).val / 256 := congrFun ht 1
  refine ⟨t, flush0_4 t, ?_⟩
  rw [mem_block]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 256 ≤ (i 1).val ∧ (i 1).val < win0_4.index t (1 : Fin 2) * 256 + 256; omega

/-- The output array after the grid has run is the layer. -/
theorem final (c : Dev nD) : (dats m 0 c).arrAt 4 cfg0.N = result m c :=
  (dats m 0 c).arrAt_eq_of_cover 4 (result m c) (fun t _ => flushed_eq m c t) covered

end Cert.KernelIdeal.Array

end
-- ==== Proof.KernelRun.lean ====
/-
  The idealized kernel's run, with its result named.

  After the grid the program reshapes the 4096 × 5376 output to `[4096, 21, 256]` and returns it. The grid leaves the
  output array at the layer, the reshape reads that array, and no line writes an argument. So every execution ends with
  the result at the reshaped layer and the four arguments as they were.
-/
import proofs.«158373_j9758165696678_1_alg».proof.Proof.KernelArray
import Idealize.ShloMosaic.Lib.StableHlo.Run

noncomputable section

namespace Cert.KernelIdeal.RunValue

open Cert.KernelIdeal Cert.KernelIdeal.Gen Cert.KernelIdeal.Entry Cert.KernelIdeal.Array Cert.MaskedLinear
open Idealize.ShloMosaic Idealize.ShloMosaic.TcCoe Idealize.SL.Sem Idealize.ShloMosaic.StableHlo

variable (m : (ℓ : Loc nD τ sig) → Buf (Elt Ideal) ℓ) (ρ : Dev nD → PrngReg)

/-- The returned array: the layer, reshaped to `[4096, 21, 256]`. -/
abbrev returned (c : Dev nD) : FVec Ideal S4096x21x256 .f32 :=
  shapeCast S4096x21x256 (result m c) shapeCasts_S4096x5376_S4096x21x256

/-- The line after the grid reshapes the grid's output array, which holds the layer. -/
theorem tail_eq (c : Dev nD) :
    Pipeline.afterTail₀ cfgs (dats m) 0 (V0 m) [hostOps1] c main_v7 = returned m c := by
  unfold Pipeline.afterTail₀
  show StableHlo.after hostOps1 _ (Proc.devRef .tc main_v7) = _
  after_results
  have e : Pipeline.withArrays (cfgs 0).spec c (V0 m c) (fun w => (dats m 0 c).arrAt w (cfgs 0).N) (Proc.devRef .tc main_v6)
      = result m c :=
    (Pipeline.withArrays_arr spec0 launch0.win.arr_inj c _ _ 4).trans (final m c)
  rw [e]
  rfl

/-- Every weakly fair execution terminates with the result at the reshaped layer and the arguments unchanged. -/
theorem run : θ_run defs (onTc (τ := τ) (main (F := Ideal))) ⟨m, fun _ => 0, ρ⟩ fun r => ∀ c : Dev nD,
      r.2.mem ((c.tc : Thread nD τ).loc main_v7) = returned m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v7 (Pipeline.mem_restRefs_of main_v7 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.RunValue

end
-- ==== Proof.lean ====
/-
  A masked linear layer over 21 nodes: the kernel against its reference, equal over the extended reals.

  Each node owns 128 input features and 256 output features, and a 21 × 21 adjacency matrix says which node may feed
  which. With the input flattened to 4096 × 2688, the weight 5376 × 2688 and `a` the adjacency converted to floats, both
  programs return, reshaped to `[4096, 21, 256]`, the array whose entry `(b, r)` is

      (∑ k, x (b, k) · (w (r, k) · a (r / 256, k / 128))) + bias r.

  The reference builds the whole 5376 × 2688 mask as the Kronecker product of `a` with a block of ones, multiplies the
  weight by it, and takes one matrix product. The kernel never builds the mask: on an 8 × 21 grid, point `(mi, ni)`
  multiplies node `ni`'s 256 weight rows by that node's mask row (the adjacency row `ni`, each entry repeated over 128
  features), takes the product with 512 input rows and writes one 512 × 256 block of the output; the blocks tile it.

  Read as exact operations on extended reals the two differ in one thing only: the reference's mask entry is
  `a (i, j) · 1` where the kernel's is `a (i, j)`. The factor `1` drops out on every extended real, the infinities
  included, so the equality asks nothing of the inputs: the precondition is not used. The kernel's changes of float
  format are the identity there, and the sums are finite sums in a commutative monoid, so tiling and order do not matter.
  Reading the kernel over the extended reals changes none of its operations, so there is nothing to preserve.

  The kernel side is in Payload (one point's store at an index), KernelEntry (the arrays as the grid finds them),
  KernelBlock (a point's store is a block of the layer), KernelArray (the blocks tile the output) and KernelRun (the run,
  through the final reshape); the reference side in RefValue; the layer itself in Spec.
-/
import proofs.«158373_j9758165696678_1_alg».proof.Defs
import proofs.«158373_j9758165696678_1_alg».proof.Proof.Gen.Kernel
import proofs.«158373_j9758165696678_1_alg».proof.Proof.Gen.Kernel.Skeleton
import proofs.«158373_j9758165696678_1_alg».proof.Proof.Gen.Kernel.Launch
import proofs.«158373_j9758165696678_1_alg».proof.Proof.Gen.Kernel.Points
import proofs.«158373_j9758165696678_1_alg».proof.Proof.Gen.Kernel.Frame
import proofs.«158373_j9758165696678_1_alg».proof.Proof.Gen.KernelIdeal
import proofs.«158373_j9758165696678_1_alg».proof.Proof.Gen.KernelIdeal.Skeleton
import proofs.«158373_j9758165696678_1_alg».proof.Proof.Gen.KernelIdeal.Launch
import proofs.«158373_j9758165696678_1_alg».proof.Proof.Gen.KernelIdeal.Points
import proofs.«158373_j9758165696678_1_alg».proof.Proof.Gen.KernelIdeal.Frame
import proofs.«158373_j9758165696678_1_alg».proof.Proof.Gen.ReferenceIdeal
import proofs.«158373_j9758165696678_1_alg».proof.Proof.Gen.Pre_finite_inputs
import proofs.«158373_j9758165696678_1_alg».proof.Proof.Gen.ReferenceIdeal.Run
import proofs.«158373_j9758165696678_1_alg».proof.Proof.Gen.ReferenceIdeal.Read
import proofs.«158373_j9758165696678_1_alg».proof.Proof.RefValue
import proofs.«158373_j9758165696678_1_alg».proof.Proof.KernelRun
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- And the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the four arguments, the kernel ends at the reshaped layer of its arguments and the
    reference at the reshape of its own sum, which is the layer of the same arguments. -/
theorem algebraic : Cert.algebraic_KernelIdeal_ReferenceIdeal := by
  intro m ρ m' ρ' _ hagree
  refine ⟨fun c => Cert.KernelIdeal.RunValue.returned m c, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v10_eq _ _ _ _).trans ?_
  unfold Cert.ReferenceIdeal.Read.val_main_v10
  rw [Cert.ReferenceIdeal.RefValue.sum_eq_layer, (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
